-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x224x224 : Shape := ⟨4, ![4, 384, 224, 224]⟩
abbrev S4x384x128 : Shape := ⟨3, ![4, 384, 128]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel
  bcast_S_S4x384x128 : S_.BroadcastsInDim S4x384x128 (![] : Fin 0 → Fin S4x384x128.rank)
  reducesTo_S4x384x128_S_d0_1_2 : S4x384x128.ReducesTo [0, 1, 2] S_

variable [Facts]

def fn {F : FTy → Type} [FloatOps F] (main_arg0 : FVec F S4x384x224x224 .f32) (main_arg1 : FVec F S4x384x128 .f32) : IVec S_ 1 :=
  let main_v0 : FVec F S4x384x224x224 .f32 := Host.absf main_arg0
  let main_cst : FVec F S_ .f32 := constant S_ .f32 0x7F800000#32
  let main_v1 : FVec F S4x384x224x224 .f32 := broadcastInDim S4x384x224x224 ![] bcast_S_S4x384x224x224 main_cst
  let main_v2 : IVec S4x384x224x224 1 := cmpf .olt main_v0 main_v1
  let main_c : IVec S_ 1 := constantI S_ 1 1#1
  let main_v3 : IVec S_ 1 := (fun x v => Host.reduce IntOp.andi x v reducesTo_S4x384x224x224_S_d0_1_2_3 h_S_) main_v2 main_c
  let main_v4 : FVec F S4x384x128 .f32 := Host.absf main_arg1
  let main_cst_0 : FVec F S_ .f32 := constant S_ .f32 0x7F800000#32
  let main_v5 : FVec F S4x384x128 .f32 := broadcastInDim S4x384x128 ![] bcast_S_S4x384x128 main_cst_0
  let main_v6 : IVec S4x384x128 1 := cmpf .olt main_v4 main_v5
  let main_c_1 : IVec S_ 1 := constantI S_ 1 1#1
  let main_v7 : IVec S_ 1 := (fun x v => Host.reduce IntOp.andi x v reducesTo_S4x384x128_S_d0_1_2 h_S_) main_v6 main_c_1
  let main_v8 : IVec S_ 1 := andi main_v3 main_v7
  main_v8
-- ==== Kernel.lean ====
abbrev S4x384x224x224 : Shape := ⟨4, ![4, 384, 224, 224]⟩
abbrev S4x384x128 : Shape := ⟨3, ![4, 384, 128]⟩
abbrev S4x384x50176 : Shape := ⟨3, ![4, 384, 50176]⟩
abbrev S4x50176x384 : Shape := ⟨3, ![4, 50176, 384]⟩
abbrev S4x50176x128 : Shape := ⟨3, ![4, 50176, 128]⟩
abbrev S1x3584x384 : Shape := ⟨3, ![1, 3584, 384]⟩
abbrev S1x384x128 : Shape := ⟨3, ![1, 384, 128]⟩
abbrev S1x7168x128 : Shape := ⟨3, ![1, 7168, 128]⟩
abbrev S384x128 : Shape := ⟨2, ![384, 128]⟩
abbrev S3584x384 : Shape := ⟨2, ![3584, 384]⟩
abbrev S3584x128 : Shape := ⟨2, ![3584, 128]⟩
abbrev S1x3584x128 : Shape := ⟨3, ![1, 3584, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x384x224x224, .f32⟩
  | .hbm, ⟨1, _⟩ => ⟨S4x384x128, .f32⟩
  | .hbm, ⟨2, _⟩ => ⟨S4x384x50176, .f32⟩
  | .hbm, ⟨3, _⟩ => ⟨S4x50176x384, .f32⟩
  | .hbm, ⟨4, _⟩ => ⟨S4x50176x128, .f32⟩
  | .local _ .vmem, ⟨0, _⟩ => ⟨S1x3584x384, .f32⟩
  | .local _ .vmem, ⟨1, _⟩ => ⟨S1x3584x384, .f32⟩
  | .local _ .vmem, ⟨2, _⟩ => ⟨S1x3584x384, .f32⟩
  | .local _ .vmem, ⟨3, _⟩ => ⟨S1x3584x384, .f32⟩
  | .local _ .vmem, ⟨4, _⟩ => ⟨S1x384x128, .f32⟩
  | .local _ .vmem, ⟨5, _⟩ => ⟨S1x384x128, .f32⟩
  | .local _ .vmem, ⟨6, _⟩ => ⟨S1x7168x128, .f32⟩
  | .local _ .vmem, ⟨7, _⟩ => ⟨S1x7168x128, .f32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3584x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3584x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x7168x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x384x224x224_S4x384x50176 : S4x384x224x224.ShapeCasts S4x384x50176
  transposes_S4x384x50176_S4x50176x384_0_2_1 : S4x384x50176.Transposes [0, 2, 1] S4x50176x384
  inb_S1x384x128_S1x384x128_0_0_0 : ∀ a, (![0, 0, 0] : Fin 3 → Nat) a + S1x384x128.size a ≤ S1x384x128.size a
  h_S1x384x128 : 0 < S1x384x128.numel
  shapeCasts_S1x384x128_S384x128 : S1x384x128.ShapeCasts S384x128
  inb_S1x3584x384_S1x3584x384_0_0_0 : ∀ a, (![0, 0, 0] : Fin 3 → Nat) a + S1x3584x384.size a ≤ S1x3584x384.size a
  h_S1x3584x384 : 0 < S1x3584x384.numel
  shapeCasts_S1x3584x384_S3584x384 : S1x3584x384.ShapeCasts S3584x384
  inb_S1x7168x128_S1x3584x128_0_0_0 : ∀ a, (![0, 0, 0] : Fin 3 → Nat) a + S1x3584x128.size a ≤ S1x7168x128.size a
  h_S1x3584x128 : 0 < S1x3584x128.numel
  shapeCasts_S1x3584x128_S3584x128 : S1x3584x128.ShapeCasts S3584x128
  shapeCasts_S3584x128_S1x3584x128 : S3584x128.ShapeCasts S1x3584x128
  inb_S1x7168x128_S1x3584x128_0_3584_0 : ∀ a, (![0, 3584, 0] : Fin 3 → Nat) a + S1x3584x128.size a ≤ S1x7168x128.size a
  dot_S3584x384_S384x128_S3584x128_1_0_0_1_n_n_wf : DotDims.WF S3584x384 S384x128 S3584x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3584x384.size a ≤ S4x50176x384.size a
  hwx0_0 : ∀ i : grid0.Coords, EltTy.bits .f32 = 32 ∨ (Rect.block (s := S4x50176x384) S1x3584x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3584x384.size a ≤ S4x50176x384.size a
  hwx0_1 : ∀ i : grid0.Coords, EltTy.bits .f32 = 32 ∨ (Rect.block (s := S4x50176x384) S1x3584x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x128.size a ≤ S4x384x128.size a
  hwx0_2 : ∀ i : grid0.Coords, EltTy.bits .f32 = 32 ∨ (Rect.block (s := S4x384x128) S1x384x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x7168x128.size a ≤ S4x50176x128.size a
  hwx0_3 : ∀ i : grid0.Coords, EltTy.bits .f32 = 32 ∨ (Rect.block (s := S4x50176x128) S1x7168x128.size (cc0_transform_3 i) (hinb0_3 i)).WholeWords (EltTy.packing .f32)

variable [Facts₀]

def dot_S3584x384_S384x128_S3584x128_1_0_0_1_n_n : DotDims S3584x384 S384x128 S3584x128 where
  lhsContracting := [1]
  rhsContracting := [0]
  lhsNonContracting := [0]
  rhsNonContracting := [1]
  lhsBatch := []
  rhsBatch := []
  wf := dot_S3584x384_S384x128_S3584x128_1_0_0_1_n_n_wf

abbrev win0_0 : Pipeline.Window sig grid0 :=
  Pipeline.Window.ofSpec (Memref.whole main_v1) S1x3584x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3584x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x384x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x7168x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x384x224x224 : Shape := ⟨4, ![4, 384, 224, 224]⟩
abbrev S4x384x128 : Shape := ⟨3, ![4, 384, 128]⟩
abbrev S4x384x50176 : Shape := ⟨3, ![4, 384, 50176]⟩
abbrev S4x50176x384 : Shape := ⟨3, ![4, 50176, 384]⟩
abbrev S4x50176x128 : Shape := ⟨3, ![4, 50176, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S4x384x128, .f32⟩
  | .hbm, ⟨2, _⟩ => ⟨S4x384x50176, .f32⟩
  | .hbm, ⟨3, _⟩ => ⟨S4x50176x384, .f32⟩
  | .hbm, ⟨4, _⟩ => ⟨S4x50176x128, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x384x224x224_S4x384x50176 : S4x384x224x224.ShapeCasts S4x384x50176
  transposes_S4x384x50176_S4x50176x384_0_2_1 : S4x384x50176.Transposes [0, 2, 1] S4x50176x384
  dot_S4x50176x384_S4x384x128_S4x50176x128_2_1_1_2_0_0_wf : DotDims.WF S4x50176x384 S4x384x128 S4x50176x128 [2] [1] [1] [2] [0] [0]

variable [Facts₀]

def dot_S4x50176x384_S4x384x128_S4x50176x128_2_1_1_2_0_0 : DotDims S4x50176x384 S4x384x128 S4x50176x128 where
  lhsContracting := [2]
  rhsContracting := [1]
  lhsNonContracting := [1]
  rhsNonContracting := [2]
  lhsBatch := [0]
  rhsBatch := [0]
  wf := dot_S4x50176x384_S4x384x128_S4x50176x128_2_1_1_2_0_0_wf

class Facts : Prop extends Facts₀ where

variable [Facts]
-- ==== Proof.LibSharedFrame.lean ====
/-
  The run of a one-region TensorCore program whose INPUT WINDOWS MAY SHARE AN ARRAY.

  A pallas_call may be handed one array through several input windows (two half-tiles of one operand read
  side by side).  The windows' arrays are then not pairwise distinct buffers, and the array's ownership has to be
  dealt among the windows on it: each input window holds a positive share of its array (the proof data's `q`), the
  shares on one buffer composing to the full share.  Given that split at the region's entry (`hsplit`), the body
  obligation, and @main up to the region, every weakly fair execution terminates and ends with every array of the
  pipeline at what the proof data compute (`Dat.arrAt … N`) and every other unscoped buffer as the region found it
  (`Pipeline.FramePost`).  The region invariant is the scoped rest alone: such a body uses no generator register.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run when windows share arrays: `hsplit` deals the buffers behind the arrays, each whole at the full
    share at the region-entry contents, into the proof data's arrays at their shares. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => (BI.emp : sProp 𝕄)) (Y := fun _ => (BI.emp : sProp 𝕄))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline

end
-- ==== Proof.FrameBits.lean ====
/-
  The run of `Cert.Kernel`'s one pallas_call, and with it the program's frame: it terminates, faults nowhere, and
  leaves its argument arrays as they were.

  The call's grid has 4 × 7 points.  At point (b, t) its body reads two consecutive half-tiles of the token array
  — rows [7168 t, 7168 t + 3584) and [7168 t + 3584, 7168 t + 7168) of batch b, through two input windows ON THE
  SAME ARRAY — and batch b's 384 × 128 projection matrix, multiplies each half-tile by the matrix into a zero
  accumulator, and stores the two products as the upper and lower half of output tile t of batch b.

  Because the two token windows read one buffer, the buffer's ownership is dealt between them: the first holds
  the left half of the full share, the second the right half (`dealt`); every other array is its window's outright.
  The body touches only staging buffers, so its obligation is that of any pointwise kernel: the three input
  buffers are left as found, and the output buffer ends as the two stores leave it (`tileOut`).
-/
import proofs.«171455_g6262062317891_cont_9to1_m_719_16_alg».proof.Proof.Gen.Kernel.Launch
import proofs.«171455_g6262062317891_cont_9to1_m_719_16_alg».proof.Proof.Gen.Kernel.Skeleton
import proofs.«171455_g6262062317891_cont_9to1_m_719_16_alg».proof.Proof.Gen.Kernel.Points
import proofs.«171455_g6262062317891_cont_9to1_m_719_16_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the reshape and the transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point — fetched there, or left from the point before,
    where the block index has not moved — for any proof data on these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

/-- The body's rectangles: a whole half-tile of tokens, the whole matrix, the upper and the lower half of the output tile. -/
abbrev rTok : Rect S1x3584x384 := Rect.unit (s := S1x3584x384) ![0, 0, 0] S1x3584x384.size inb_S1x3584x384_S1x3584x384_0_0_0
abbrev rMat : Rect S1x384x128 := Rect.unit (s := S1x384x128) ![0, 0, 0] S1x384x128.size inb_S1x384x128_S1x384x128_0_0_0
abbrev rUp : Rect S1x7168x128 := Rect.unit (s := S1x7168x128) ![0, 0, 0] S1x3584x128.size inb_S1x7168x128_S1x3584x128_0_0_0
abbrev rLo : Rect S1x7168x128 := Rect.unit (s := S1x7168x128) ![0, 3584, 0] S1x3584x128.size inb_S1x7168x128_S1x3584x128_0_3584_0

/-- The output tile after the body, from the two token half-tiles `xa`, `xb` and the matrix `r`: the second store's
    product over the first's (the later store listed first). -/
def tileOut (xa xb : Vec F S1x3584x384 .f32) (r : Vec F S1x384x128 .f32) : Vec F S1x7168x128 .f32 :=
  View.canon [⟨rLo, k0_pay3 (View.ld r rMat) (View.ld xb rTok)⟩, ⟨rUp, k0_pay2 (View.ld r rMat) (View.ld xa rTok)⟩]

/-- The two halves tile the output tile. -/
theorem tile_cover (p1 p0 : Vec F S1x3584x128 .f32) (y : S1x7168x128.Idx) :
    ∃ pc ∈ ([⟨rLo, p1⟩, ⟨rUp, p0⟩] : List (View.Piece (Elt F) S1x7168x128 .f32)), y ∈ pc.1.set :=
  View.cover_of_tiled [⟨rLo, p1⟩, ⟨rUp, p0⟩] S1x3584x128.size (by rfl) y

/-! ## The body's triple -/

set_option maxHeartbeats 1000000 in
/-- The body on whole staging memrefs — the three inputs at contents `xa`, `xb`, `r`, the output at anything — runs to
    the continuation with the inputs as they were and the output at `tileOut`. -/
theorem sound_kernel (c : Dev nD) (E : Set ℕ) (i : grid0.Coords)
    (arg2 : Memref sig .tc .vmem S1x3584x384 .f32) (harg2 : arg2.IsWhole) (arg3 : Memref sig .tc .vmem S1x3584x384 .f32) (harg3 : arg3.IsWhole)
    (arg4 : Memref sig .tc .vmem S1x384x128 .f32) (harg4 : arg4.IsWhole) (arg5 : Memref sig .tc .vmem S1x7168x128 .f32) (harg5 : arg5.IsWhole)
    (xa xb : Vec F S1x3584x384 .f32) (r : Vec F S1x384x128 .f32) (K : PUnit → sProp 𝕄) :
    iprop(owns (c : Thread nD τ) arg2 fullShare xa ∗ owns (c : Thread nD τ) arg3 fullShare xb ∗ owns (c : Thread nD τ) arg4 fullShare r
        ∗ (∃ d, owns (c : Thread nD τ) arg5 fullShare d)
        ∗ (iprop(owns (c : Thread nD τ) arg2 fullShare xa ∗ owns (c : Thread nD τ) arg3 fullShare xb ∗ owns (c : Thread nD τ) arg4 fullShare r
            ∗ owns (c : Thread nD τ) arg5 fullShare (tileOut xa xb r)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _ _)

/-! ## The proof data -/

/-- On core `c`: the arrays as the call finds them; after the body at point `t` each input's buffer at its block and
    the output's at `tileOut` of the three blocks; the invariant the core's scoped buffers that no window stages
    (there is none); nothing owed; the token array's full share dealt in halves to its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tileOut (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The arrays at the call's entry, dealt to the windows -/

/-- The distinct buffers behind the four windows' arrays: the token array, the matrices, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v1) ↦{fullShare} V m c main_v1) ∗ (((c : Thread nD τ).loc main_arg1) ↦{fullShare} V m c main_arg1)
          ∗ (((c : Thread nD τ).loc main_v2) ↦{fullShare} V m c main_v2)) := by
  unfold Pipeline.arrBufs
  exact bigSep_eq_bigSepL_of_eq [main_v1, main_arg1, main_v2] (by decide) (by decide) _

/-- The token array's full share splits into its left and right halves, one for each of the two windows that read
    it; the matrices and the result go whole to their windows. -/
theorem dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (((cfg0.win 0).arr.view.loc (c.tc : Thread nD τ)) ↦[(cfg0.win 0).arr.view.set]{(dats m 0 c).share 0} (dats m 0 c).arrAt 0 0 : sProp 𝕄)
      = (((c : Thread nD τ).loc main_v1) ↦{fullShare.left} V m c main_v1) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c : Thread nD τ).loc main_v1) ↦{fullShare.right} V m c main_v1) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c : Thread nD τ).loc main_arg1) ↦{fullShare} V m c main_arg1) := by
    rw [(arr_whole0 2).set_eq_univ]; rfl
  have e3 : (((cfg0.win 3).arr.view.loc (c.tc : Thread nD τ)) ↦[(cfg0.win 3).arr.view.set]{(dats m 0 c).share 3} (dats m 0 c).arrAt 3 0 : sProp 𝕄)
      = (((c : Thread nD τ).loc main_v2) ↦{fullShare} V m c main_v2) := by
    rw [(arr_whole0 3).set_eq_univ]; rfl
  rw [e0, e1, e2, e3]
  iintro ⟨H1, H2, H3⟩
  have halves : ((((c : Thread nD τ).loc main_v1) ↦{fullShare} V m c main_v1) : sProp 𝕄)
      ⊢ iprop((((c : Thread nD τ).loc main_v1) ↦{fullShare.left} V m c main_v1) ∗ (((c : Thread nD τ).loc main_v1) ↦{fullShare.right} V m c main_v1)) :=
    (pointsTo_share (PosShare.mem_left_op_right fullShare)).1
  ihave H := halves $$ H1
  icases H with ⟨Ha, Hb⟩
  isplitl [Ha]; · iexact Ha
  isplitl [Hb]; · iexact Hb
  isplitl [H2]; · iexact H2
  iexact H3

/-! ## The run and the frame -/

set_option backward.isDefEq.respectTransparency.types false in
/-- From any memory with zero counters, every weakly fair execution of @main terminates, and ends with every array
    of the call at what the proof data compute and every other unscoped buffer as the call found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := dealt m) (hΦ := fun _ _ => rfl)

/-- The frame: the first argument is no window's array and bypasses the call; the second is an input window's
    array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c)))⟩) (run_main m ρ)

end Cert.Kernel.Run

end
-- ==== Proof.FrameIdeal.lean ====
/-
  The run of `Cert.KernelIdeal`'s one pallas_call, and with it the program's frame: it terminates, faults nowhere, and
  leaves its argument arrays as they were.

  The call's grid has 4 × 7 points.  At point (b, t) its body reads two consecutive half-tiles of the token array
  — rows [7168 t, 7168 t + 3584) and [7168 t + 3584, 7168 t + 7168) of batch b, through two input windows ON THE
  SAME ARRAY — and batch b's 384 × 128 projection matrix, multiplies each half-tile by the matrix into a zero
  accumulator, and stores the two products as the upper and lower half of output tile t of batch b.

  Because the two token windows read one buffer, the buffer's ownership is dealt between them: the first holds
  the left half of the full share, the second the right half (`dealt`); every other array is its window's outright.
  The body touches only staging buffers, so its obligation is that of any pointwise kernel: the three input
  buffers are left as found, and the output buffer ends as the two stores leave it (`tileOut`).
-/
import proofs.«171455_g6262062317891_cont_9to1_m_719_16_alg».proof.Proof.Gen.KernelIdeal.Launch
import proofs.«171455_g6262062317891_cont_9to1_m_719_16_alg».proof.Proof.Gen.KernelIdeal.Skeleton
import proofs.«171455_g6262062317891_cont_9to1_m_719_16_alg».proof.Proof.Gen.KernelIdeal.Points
import proofs.«171455_g6262062317891_cont_9to1_m_719_16_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the reshape and the transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point — fetched there, or left from the point before,
    where the block index has not moved — for any proof data on these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

/-- The body's rectangles: a whole half-tile of tokens, the whole matrix, the upper and the lower half of the output tile. -/
abbrev rTok : Rect S1x3584x384 := Rect.unit (s := S1x3584x384) ![0, 0, 0] S1x3584x384.size inb_S1x3584x384_S1x3584x384_0_0_0
abbrev rMat : Rect S1x384x128 := Rect.unit (s := S1x384x128) ![0, 0, 0] S1x384x128.size inb_S1x384x128_S1x384x128_0_0_0
abbrev rUp : Rect S1x7168x128 := Rect.unit (s := S1x7168x128) ![0, 0, 0] S1x3584x128.size inb_S1x7168x128_S1x3584x128_0_0_0
abbrev rLo : Rect S1x7168x128 := Rect.unit (s := S1x7168x128) ![0, 3584, 0] S1x3584x128.size inb_S1x7168x128_S1x3584x128_0_3584_0

/-- The output tile after the body, from the two token half-tiles `xa`, `xb` and the matrix `r`: the second store's
    product over the first's (the later store listed first). -/
def tileOut (xa xb : Vec F S1x3584x384 .f32) (r : Vec F S1x384x128 .f32) : Vec F S1x7168x128 .f32 :=
  View.canon [⟨rLo, k0_pay3 (View.ld r rMat) (View.ld xb rTok)⟩, ⟨rUp, k0_pay2 (View.ld r rMat) (View.ld xa rTok)⟩]

/-- The two halves tile the output tile. -/
theorem tile_cover (p1 p0 : Vec F S1x3584x128 .f32) (y : S1x7168x128.Idx) :
    ∃ pc ∈ ([⟨rLo, p1⟩, ⟨rUp, p0⟩] : List (View.Piece (Elt F) S1x7168x128 .f32)), y ∈ pc.1.set :=
  View.cover_of_tiled [⟨rLo, p1⟩, ⟨rUp, p0⟩] S1x3584x128.size (by rfl) y

/-! ## The body's triple -/

set_option maxHeartbeats 1000000 in
/-- The body on whole staging memrefs — the three inputs at contents `xa`, `xb`, `r`, the output at anything — runs to
    the continuation with the inputs as they were and the output at `tileOut`. -/
theorem sound_kernel (c : Dev nD) (E : Set ℕ) (i : grid0.Coords)
    (arg2 : Memref sig .tc .vmem S1x3584x384 .f32) (harg2 : arg2.IsWhole) (arg3 : Memref sig .tc .vmem S1x3584x384 .f32) (harg3 : arg3.IsWhole)
    (arg4 : Memref sig .tc .vmem S1x384x128 .f32) (harg4 : arg4.IsWhole) (arg5 : Memref sig .tc .vmem S1x7168x128 .f32) (harg5 : arg5.IsWhole)
    (xa xb : Vec F S1x3584x384 .f32) (r : Vec F S1x384x128 .f32) (K : PUnit → sProp 𝕄) :
    iprop(owns (c : Thread nD τ) arg2 fullShare xa ∗ owns (c : Thread nD τ) arg3 fullShare xb ∗ owns (c : Thread nD τ) arg4 fullShare r
        ∗ (∃ d, owns (c : Thread nD τ) arg5 fullShare d)
        ∗ (iprop(owns (c : Thread nD τ) arg2 fullShare xa ∗ owns (c : Thread nD τ) arg3 fullShare xb ∗ owns (c : Thread nD τ) arg4 fullShare r
            ∗ owns (c : Thread nD τ) arg5 fullShare (tileOut xa xb r)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _ _)

/-! ## The proof data -/

/-- On core `c`: the arrays as the call finds them; after the body at point `t` each input's buffer at its block and
    the output's at `tileOut` of the three blocks; the invariant the core's scoped buffers that no window stages
    (there is none); nothing owed; the token array's full share dealt in halves to its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tileOut (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The arrays at the call's entry, dealt to the windows -/

/-- The distinct buffers behind the four windows' arrays: the token array, the matrices, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v1) ↦{fullShare} V m c main_v1) ∗ (((c : Thread nD τ).loc main_arg1) ↦{fullShare} V m c main_arg1)
          ∗ (((c : Thread nD τ).loc main_v2) ↦{fullShare} V m c main_v2)) := by
  unfold Pipeline.arrBufs
  exact bigSep_eq_bigSepL_of_eq [main_v1, main_arg1, main_v2] (by decide) (by decide) _

/-- The token array's full share splits into its left and right halves, one for each of the two windows that read
    it; the matrices and the result go whole to their windows. -/
theorem dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (((cfg0.win 0).arr.view.loc (c.tc : Thread nD τ)) ↦[(cfg0.win 0).arr.view.set]{(dats m 0 c).share 0} (dats m 0 c).arrAt 0 0 : sProp 𝕄)
      = (((c : Thread nD τ).loc main_v1) ↦{fullShare.left} V m c main_v1) := by
    rw [(arr_whole0 0).set_eq_univ]; rfl
  have e1 : (((cfg0.win 1).arr.view.loc (c.tc : Thread nD τ)) ↦[(cfg0.win 1).arr.view.set]{(dats m 0 c).share 1} (dats m 0 c).arrAt 1 0 : sProp 𝕄)
      = (((c : Thread nD τ).loc main_v1) ↦{fullShare.right} V m c main_v1) := by
    rw [(arr_whole0 1).set_eq_univ]; rfl
  have e2 : (((cfg0.win 2).arr.view.loc (c.tc : Thread nD τ)) ↦[(cfg0.win 2).arr.view.set]{(dats m 0 c).share 2} (dats m 0 c).arrAt 2 0 : sProp 𝕄)
      = (((c : Thread nD τ).loc main_arg1) ↦{fullShare} V m c main_arg1) := by
    rw [(arr_whole0 2).set_eq_univ]; rfl
  have e3 : (((cfg0.win 3).arr.view.loc (c.tc : Thread nD τ)) ↦[(cfg0.win 3).arr.view.set]{(dats m 0 c).share 3} (dats m 0 c).arrAt 3 0 : sProp 𝕄)
      = (((c : Thread nD τ).loc main_v2) ↦{fullShare} V m c main_v2) := by
    rw [(arr_whole0 3).set_eq_univ]; rfl
  rw [e0, e1, e2, e3]
  iintro ⟨H1, H2, H3⟩
  have halves : ((((c : Thread nD τ).loc main_v1) ↦{fullShare} V m c main_v1) : sProp 𝕄)
      ⊢ iprop((((c : Thread nD τ).loc main_v1) ↦{fullShare.left} V m c main_v1) ∗ (((c : Thread nD τ).loc main_v1) ↦{fullShare.right} V m c main_v1)) :=
    (pointsTo_share (PosShare.mem_left_op_right fullShare)).1
  ihave H := halves $$ H1
  icases H with ⟨Ha, Hb⟩
  isplitl [Ha]; · iexact Ha
  isplitl [Hb]; · iexact Hb
  isplitl [H2]; · iexact H2
  iexact H3

/-! ## The run and the frame -/

set_option backward.isDefEq.respectTransparency.types false in
/-- From any memory with zero counters, every weakly fair execution of @main terminates, and ends with every array
    of the call at what the proof data compute and every other unscoped buffer as the call found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := dealt m) (hΦ := fun _ _ => rfl)

/-- The frame: the first argument is no window's array and bypasses the call; the second is an input window's
    array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c)))⟩) (run_main m ρ)

end Cert.KernelIdeal.Run

end
-- ==== Proof.ProductIdeal.lean ====
/-
  The body's two products read at an index.

  Each store's value is a half-tile of tokens (3584 rows of 384 channels) times the batch's 384 × 128 matrix, into a
  zero accumulator: over the extended reals, entry (p, q) of the product is the plain sum over the 384 channels k
  of token p's channel k times the matrix's entry (k, q).  The leading unit axes of the loaded blocks and of the stored
  value are relabellings.
-/
import proofs.«171455_g6262062317891_cont_9to1_m_719_16_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Product

open Idealize.ShloMosaic Idealize.ShloMosaic.ValueIdx
open Cert.KernelIdeal Cert.KernelIdeal.Gen

/-- The product's dimension numbers: rows × (contracted channels) times (contracted channels) × columns. -/
abbrev dims := dot_S3584x384_S384x128_S3584x128_1_0_0_1_n_n

theorem lhs_row (i : S3584x128.Idx) (q : dot_S3584x384_S384x128_S3584x128_1_0_0_1_n_n.contr.Idx) :
    (dot_S3584x384_S384x128_S3584x128_1_0_0_1_n_n.lhsIdx i q 0).val = (i 0).val := by
  unfold DotDims.lhsIdx
  rw [dif_neg (show ¬(0 : Fin S3584x384.rank) ∈ dot_S3584x384_S384x128_S3584x128_1_0_0_1_n_n.lhsBatch by decide), dif_pos (show (0 : Fin S3584x384.rank) ∈ dot_S3584x384_S384x128_S3584x128_1_0_0_1_n_n.lhsNonContracting by decide)]
  rfl
theorem lhs_chan (i : S3584x128.Idx) (q : dot_S3584x384_S384x128_S3584x128_1_0_0_1_n_n.contr.Idx) :
    (dot_S3584x384_S384x128_S3584x128_1_0_0_1_n_n.lhsIdx i q 1).val = (q ⟨0, by decide⟩).val :=
  dot_S3584x384_S384x128_S3584x128_1_0_0_1_n_n.lhsIdx_val_of_single rfl i q
theorem rhs_chan (i : S3584x128.Idx) (q : dot_S3584x384_S384x128_S3584x128_1_0_0_1_n_n.contr.Idx) :
    (dot_S3584x384_S384x128_S3584x128_1_0_0_1_n_n.rhsIdx i q 0).val = (q ⟨0, by decide⟩).val :=
  dot_S3584x384_S384x128_S3584x128_1_0_0_1_n_n.rhsIdx_val_of_single rfl i q
theorem rhs_col (i : S3584x128.Idx) (q : dot_S3584x384_S384x128_S3584x128_1_0_0_1_n_n.contr.Idx) :
    (dot_S3584x384_S384x128_S3584x128_1_0_0_1_n_n.rhsIdx i q 1).val = (i 1).val := by
  unfold DotDims.rhsIdx
  rw [dif_neg (show ¬(1 : Fin S384x128.rank) ∈ dot_S3584x384_S384x128_S3584x128_1_0_0_1_n_n.rhsBatch by decide), dif_pos (show (1 : Fin S384x128.rank) ∈ dot_S3584x384_S384x128_S3584x128_1_0_0_1_n_n.rhsNonContracting by decide)]
  rfl

/-- A 3584 × 384 matrix times a 384 × 128 matrix into the zero accumulator, at entry (p, q). -/
theorem product_apply (A : FVec Ideal S3584x384 .f32) (B : FVec Ideal S384x128 .f32) (p : Fin 3584) (q : Fin 128) :
    matmul (F := Ideal) dot_S3584x384_S384x128_S3584x128_1_0_0_1_n_n none A B (constant S3584x128 .f32 0x00000000#32) (ix2 p q)
      = ∑ k : Fin 384, A (ix2 p k) * B (ix2 k q) := by
  show FloatOps.matmul dot_S3584x384_S384x128_S3584x128_1_0_0_1_n_n none A B (constant S3584x128 .f32 0x00000000#32) (ix2 p q) = _
  rw [Ideal.matmul_constant_zero_apply, ← Equiv.sum_comp (contrEquiv1 dot_S3584x384_S384x128_S3584x128_1_0_0_1_n_n 384 rfl rfl).symm]
  refine Finset.sum_congr rfl fun k _ => ?_
  have hk := contrEquiv1_symm_val dot_S3584x384_S384x128_S3584x128_1_0_0_1_n_n 384 rfl rfl k
  have el : dot_S3584x384_S384x128_S3584x128_1_0_0_1_n_n.lhsIdx (ix2 p q) ((contrEquiv1 dot_S3584x384_S384x128_S3584x128_1_0_0_1_n_n 384 rfl rfl).symm k) = ix2 p k := funext fun a => Fin.ext (by
    match a with
    | ⟨0, _⟩ => exact lhs_row _ _
    | ⟨1, _⟩ => exact (lhs_chan _ _).trans hk)
  have er : dot_S3584x384_S384x128_S3584x128_1_0_0_1_n_n.rhsIdx (ix2 p q) ((contrEquiv1 dot_S3584x384_S384x128_S3584x128_1_0_0_1_n_n 384 rfl rfl).symm k) = ix2 k q := funext fun a => Fin.ext (by
    match a with
    | ⟨0, _⟩ => exact (rhs_chan _ _).trans hk
    | ⟨1, _⟩ => exact rhs_col _ _)
  rw [el, er]

/-- Dropping the unit axis of a loaded half-tile of tokens. -/
theorem tok_apply (xa : Vec Ideal S1x3584x384 .f32) (p : Fin 3584) (k : Fin 384) :
    shapeCast S3584x384 xa shapeCasts_S1x3584x384_S3584x384 (ix2 p k) = xa (ix3 (0 : Fin 1) p k) :=
  shapeCast_apply xa shapeCasts_S1x3584x384_S3584x384 (ix2 p k) (ix3 (0 : Fin 1) p k)
    (by rewrite [Shape.rowMajor_val_three, Shape.rowMajor_val_two]; show ((0 : Fin 1).val * 3584 + p.val) * 384 + k.val = p.val * 384 + k.val; simp)

/-- Dropping the unit axis of the loaded matrix. -/
theorem mat_apply (r : Vec Ideal S1x384x128 .f32) (k : Fin 384) (q : Fin 128) :
    shapeCast S384x128 r shapeCasts_S1x384x128_S384x128 (ix2 k q) = r (ix3 (0 : Fin 1) k q) :=
  shapeCast_apply r shapeCasts_S1x384x128_S384x128 (ix2 k q) (ix3 (0 : Fin 1) k q)
    (by rewrite [Shape.rowMajor_val_three, Shape.rowMajor_val_two]; show ((0 : Fin 1).val * 384 + k.val) * 128 + q.val = k.val * 128 + q.val; simp)

/-- Restoring the unit axis of a product. -/
theorem out_apply (M : FVec Ideal S3584x128 .f32) (p : Fin 3584) (q : Fin 128) :
    shapeCast S1x3584x128 M shapeCasts_S3584x128_S1x3584x128 (ix3 (0 : Fin 1) p q) = M (ix2 p q) :=
  shapeCast_apply M shapeCasts_S3584x128_S1x3584x128 (ix3 (0 : Fin 1) p q) (ix2 p q)
    (by rewrite [Shape.rowMajor_val_three, Shape.rowMajor_val_two]; show p.val * 128 + q.val = ((0 : Fin 1).val * 3584 + p.val) * 128 + q.val; simp)

/-- The first store's value at (0, p, q): token p of the first half-tile against column q of the matrix. -/
theorem upper_apply (r : Vec Ideal S1x384x128 .f32) (xa : Vec Ideal S1x3584x384 .f32) (p : Fin 3584) (q : Fin 128) :
    k0_pay2 (F := Ideal) r xa (ix3 (0 : Fin 1) p q) = ∑ k : Fin 384, xa (ix3 (0 : Fin 1) p k) * r (ix3 (0 : Fin 1) k q) := by
  unfold k0_pay2 k0_pay1
  refine (out_apply _ p q).trans ?_
  refine (product_apply _ _ p q).trans ?_
  exact Finset.sum_congr rfl fun k _ => by rw [tok_apply, mat_apply]

/-- The second store's value at (0, p, q): the same of the second half-tile. -/
theorem lower_apply (r : Vec Ideal S1x384x128 .f32) (xb : Vec Ideal S1x3584x384 .f32) (p : Fin 3584) (q : Fin 128) :
    k0_pay3 (F := Ideal) r xb (ix3 (0 : Fin 1) p q) = ∑ k : Fin 384, xb (ix3 (0 : Fin 1) p k) * r (ix3 (0 : Fin 1) k q) := by
  unfold k0_pay3 k0_pay1
  refine (out_apply _ p q).trans ?_
  refine (product_apply _ _ p q).trans ?_
  exact Finset.sum_congr rfl fun k _ => by rw [tok_apply, mat_apply]

end Cert.KernelIdeal.Product

end
-- ==== Proof.Projection.lean ====
/-
  The specification: per batch element, every token's 384-channel vector projected by the batch's 384 × 128 matrix,

      proj X R (n, p, j) = ∑ k < 384, X (n, p, k) · R (n, k, j)

  over the extended reals.  Both programs compute it from the same token array X (the input's pixels relabelled as
  tokens) and the same matrices R; only sums and products of the same entries occur on both sides, so no finiteness
  of the inputs is needed.
-/
import Idealize.ShloMosaic.PureOps.Ideal
import Idealize.ShloMosaic.Lib.ValueIdx

noncomputable section

namespace Cert.Projection

open Idealize.ShloMosaic

/-- Tokens: batch × pixel × channel. -/
abbrev STok : Shape := ⟨3, ![4, 50176, 384]⟩
/-- Matrices: batch × channel × code. -/
abbrev SMat : Shape := ⟨3, ![4, 384, 128]⟩
/-- Hash codes: batch × pixel × code. -/
abbrev SCode : Shape := ⟨3, ![4, 50176, 128]⟩

/-- Channel `k` of the token an output entry belongs to. -/
abbrev tokAt (i : SCode.Idx) (k : Fin 384) : STok.Idx := fun a => match a with
  | ⟨0, _⟩ => ⟨(i 0).val, (i 0).isLt⟩
  | ⟨1, _⟩ => ⟨(i 1).val, (i 1).isLt⟩
  | ⟨2, _⟩ => ⟨k.val, k.isLt⟩

/-- Row `k` of the matrix column an output entry belongs to. -/
abbrev matAt (i : SCode.Idx) (k : Fin 384) : SMat.Idx := fun a => match a with
  | ⟨0, _⟩ => ⟨(i 0).val, (i 0).isLt⟩
  | ⟨1, _⟩ => ⟨k.val, k.isLt⟩
  | ⟨2, _⟩ => ⟨(i 2).val, (i 2).isLt⟩

/-- The projection. -/
def proj (X : STok.Idx → EReal) (R : SMat.Idx → EReal) : SCode.Idx → EReal :=
  fun i => ∑ k : Fin 384, X (tokAt i k) * R (matAt i k)

theorem proj_apply (X : STok.Idx → EReal) (R : SMat.Idx → EReal) (i : SCode.Idx) :
    proj X R i = ∑ k : Fin 384, X (tokAt i k) * R (matAt i k) := rfl

end Cert.Projection

end
-- ==== Proof.ValueIdeal.lean ====
/-
  What the call's result array holds after the run, at the extended reals: the projection of the token array by the
  matrices.

  Point (b, t) of the grid writes back output tile t of batch b — rows [7168 t, 7168 t + 7168).  Its upper half is the
  first token window's half-tile (block 2t of 3584 rows) times batch b's matrix, its lower half the second window's
  (block 2t + 1): row 7168 t + p of the result from token row 3584 · 2t + p, and row 7168 t + 3584 + p from token row
  3584 · (2t + 1) + p — the same row.  So each tile is the restriction of ONE function of the arrays, `proj`; the 28
  tiles cover the array; the array ends at `proj`.
-/
import proofs.«171455_g6262062317891_cont_9to1_m_719_16_alg».proof.Proof.FrameIdeal
import proofs.«171455_g6262062317891_cont_9to1_m_719_16_alg».proof.Proof.ProductIdeal
import proofs.«171455_g6262062317891_cont_9to1_m_719_16_alg».proof.Proof.Projection
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Run Cert.Projection

variable (m : (ℓ : Loc nD τ sig) → Buf (Elt Ideal) ℓ) (ρ : Dev nD → PrngReg)

/-- The four index maps over the grid: the two token windows sit at blocks 2t and 2t + 1 of the output's batch, the
    matrix window at the batch's matrix, and the output's block indices stay in range. -/
theorem idx_facts : ∀ t : Fin cfg0.N,
    win0_0.index t (0 : Fin 3) = win0_3.index t (0 : Fin 3) ∧ win0_0.index t (1 : Fin 3) = 2 * win0_3.index t (1 : Fin 3) ∧ win0_0.index t (2 : Fin 3) = 0
    ∧ win0_1.index t (0 : Fin 3) = win0_3.index t (0 : Fin 3) ∧ win0_1.index t (1 : Fin 3) = 2 * win0_3.index t (1 : Fin 3) + 1 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) ≤ 6 ∧ win0_3.index t (2 : Fin 3) = 0 :=
  (by decide +kernel : ∀ t : Fin grid0.N, _)

/-- Every (batch, tile) pair is some point's. -/
theorem idx_onto : ∀ (q0 : Fin 4) (q1 : Fin 7), ∃ t : Fin cfg0.N, win0_3.index t = ![q0.val, q1.val, 0] :=
  (by decide +kernel : ∀ (q0 : Fin 4) (q1 : Fin 7), ∃ t : Fin grid0.N, win0_3.index t = ![q0.val, q1.val, 0])

/-- The upper half of point `t`'s tile is `proj` there. -/
theorem upper_piece (c : Dev nD) (t : Fin cfg0.N) (x : S1x3584x128.Idx) :
    k0_pay2 (F := Ideal) (View.ld (iblk m c 2 t) rMat) (View.ld (iblk m c 0 t) rTok) x
      = proj (V m c main_v1) (V m c main_arg1) (((cfg0.win 3).blk t).view.emb (rUp.emb x)) := by
  obtain ⟨p, q, rfl⟩ : ∃ (p : Fin 3584) (q : Fin 128), x = ix3 (0 : Fin 1) p q :=
    ⟨x 1, x 2, (eq_ix3 x).trans (congrArg (fun z : Fin 1 => ix3 z (x 1) (x 2)) (Fin.eq_zero (x 0 : Fin 1)))⟩
  refine (Product.upper_apply (View.ld (iblk m c 2 t) rMat) (View.ld (iblk m c 0 t) rTok) p q).trans ?_
  rw [proj_apply]
  obtain ⟨a0, a1, a2, b0, b1, b2, r0, r1, r2, o0, o1, o2⟩ := idx_facts t
  refine Finset.sum_congr rfl fun k _ => ?_
  have hX : View.ld (iblk m c 0 t) rTok (ix3 (0 : Fin 1) p k)
      = V m c main_v1 (tokAt (((cfg0.win 3).blk t).view.emb (rUp.emb (ix3 (0 : Fin 1) p q))) k) := by
    show V m c main_v1 (((cfg0.win 0).blk t).view.emb (rTok.idx (ix3 (0 : Fin 1) p k))) = _
    refine congrArg (V m c main_v1) (funext fun a => Fin.ext ?_)
    match a with
    | ⟨0, _⟩ => show win0_0.index t (0 : Fin 3) * 1 + 1 * (0 + 1 * 0) = win0_3.index t (0 : Fin 3) * 1 + 1 * (0 + 1 * 0); omega
    | ⟨1, _⟩ => show win0_0.index t (1 : Fin 3) * 3584 + 1 * (0 + 1 * p.val) = win0_3.index t (1 : Fin 3) * 7168 + 1 * (0 + 1 * p.val); omega
    | ⟨2, _⟩ => show win0_0.index t (2 : Fin 3) * 384 + 1 * (0 + 1 * k.val) = k.val; omega
  have hR : View.ld (iblk m c 2 t) rMat (ix3 (0 : Fin 1) k q)
      = V m c main_arg1 (matAt (((cfg0.win 3).blk t).view.emb (rUp.emb (ix3 (0 : Fin 1) p q))) k) := by
    show V m c main_arg1 (((cfg0.win 2).blk t).view.emb (rMat.idx (ix3 (0 : Fin 1) k q))) = _
    refine congrArg (V m c main_arg1) (funext fun a => Fin.ext ?_)
    match a with
    | ⟨0, _⟩ => show win0_2.index t (0 : Fin 3) * 1 + 1 * (0 + 1 * 0) = win0_3.index t (0 : Fin 3) * 1 + 1 * (0 + 1 * 0); omega
    | ⟨1, _⟩ => show win0_2.index t (1 : Fin 3) * 384 + 1 * (0 + 1 * k.val) = k.val; omega
    | ⟨2, _⟩ => show win0_2.index t (2 : Fin 3) * 128 + 1 * (0 + 1 * q.val) = win0_3.index t (2 : Fin 3) * 128 + 1 * (0 + 1 * q.val); omega
  rw [hX, hR]

/-- The lower half of point `t`'s tile is `proj` there. -/
theorem lower_piece (c : Dev nD) (t : Fin cfg0.N) (x : S1x3584x128.Idx) :
    k0_pay3 (F := Ideal) (View.ld (iblk m c 2 t) rMat) (View.ld (iblk m c 1 t) rTok) x
      = proj (V m c main_v1) (V m c main_arg1) (((cfg0.win 3).blk t).view.emb (rLo.emb x)) := by
  obtain ⟨p, q, rfl⟩ : ∃ (p : Fin 3584) (q : Fin 128), x = ix3 (0 : Fin 1) p q :=
    ⟨x 1, x 2, (eq_ix3 x).trans (congrArg (fun z : Fin 1 => ix3 z (x 1) (x 2)) (Fin.eq_zero (x 0 : Fin 1)))⟩
  refine (Product.lower_apply (View.ld (iblk m c 2 t) rMat) (View.ld (iblk m c 1 t) rTok) p q).trans ?_
  rw [proj_apply]
  obtain ⟨a0, a1, a2, b0, b1, b2, r0, r1, r2, o0, o1, o2⟩ := idx_facts t
  refine Finset.sum_congr rfl fun k _ => ?_
  have hX : View.ld (iblk m c 1 t) rTok (ix3 (0 : Fin 1) p k)
      = V m c main_v1 (tokAt (((cfg0.win 3).blk t).view.emb (rLo.emb (ix3 (0 : Fin 1) p q))) k) := by
    show V m c main_v1 (((cfg0.win 1).blk t).view.emb (rTok.idx (ix3 (0 : Fin 1) p k))) = _
    refine congrArg (V m c main_v1) (funext fun a => Fin.ext ?_)
    match a with
    | ⟨0, _⟩ => show win0_1.index t (0 : Fin 3) * 1 + 1 * (0 + 1 * 0) = win0_3.index t (0 : Fin 3) * 1 + 1 * (0 + 1 * 0); omega
    | ⟨1, _⟩ => show win0_1.index t (1 : Fin 3) * 3584 + 1 * (0 + 1 * p.val) = win0_3.index t (1 : Fin 3) * 7168 + 1 * (3584 + 1 * p.val); omega
    | ⟨2, _⟩ => show win0_1.index t (2 : Fin 3) * 384 + 1 * (0 + 1 * k.val) = k.val; omega
  have hR : View.ld (iblk m c 2 t) rMat (ix3 (0 : Fin 1) k q)
      = V m c main_arg1 (matAt (((cfg0.win 3).blk t).view.emb (rLo.emb (ix3 (0 : Fin 1) p q))) k) := by
    show V m c main_arg1 (((cfg0.win 2).blk t).view.emb (rMat.idx (ix3 (0 : Fin 1) k q))) = _
    refine congrArg (V m c main_arg1) (funext fun a => Fin.ext ?_)
    match a with
    | ⟨0, _⟩ => show win0_2.index t (0 : Fin 3) * 1 + 1 * (0 + 1 * 0) = win0_3.index t (0 : Fin 3) * 1 + 1 * (0 + 1 * 0); omega
    | ⟨1, _⟩ => show win0_2.index t (1 : Fin 3) * 384 + 1 * (0 + 1 * k.val) = k.val; omega
    | ⟨2, _⟩ => show win0_2.index t (2 : Fin 3) * 128 + 1 * (0 + 1 * q.val) = win0_3.index t (2 : Fin 3) * 128 + 1 * (0 + 1 * q.val); omega
  rw [hX, hR]

/-- What point `t` writes back is tile `t` of `proj` of the arrays as the call finds them. -/
theorem flushed_eq (c : Dev nD) (t : Fin cfg0.N) :
    (dats m 0 c).flushed 3 t = ((cfg0.win 3).blk t).view.read (Elt Ideal) (proj (V m c main_v1) (V m c main_arg1)) := by
  show (cfg0.win 3).cut (grid0.coords t) ((dats m 0 c).after 3 t) = _
  rw [after3]
  unfold tileOut
  funext j
  show View.canon (Val := Elt Ideal) (s := S1x7168x128) (e := .f32) _ j = proj (V m c main_v1) (V m c main_arg1) (((cfg0.win 3).blk t).view.emb j)
  refine View.canon_apply_of_pieces (Val := Elt Ideal) (S := S1x7168x128) (e := .f32) (fun j => proj (V m c main_v1) (V m c main_arg1) (((cfg0.win 3).blk t).view.emb j)) _ ?_ j (tile_cover _ _ j)
  intro pc hpc x
  simp only [List.mem_cons, List.not_mem_nil, or_false] at hpc
  rcases hpc with rfl | rfl
  · exact lower_piece m c t x
  · exact upper_piece m c t x

/-- An index of the result array is in point `t`'s tile iff each coordinate is in the tile's range on its axis. -/
theorem mem_tile (t : Fin cfg0.N) (i : S4x50176x128.Idx) :
    i ∈ ((cfg0.win 3).blk t).view.set ↔ ∀ a : Fin 3, win0_3.index t a * S1x7168x128.size a ≤ (i a).val ∧ (i a).val < win0_3.index t a * S1x7168x128.size a + S1x7168x128.size a := by
  show i ∈ ((View.whole main_v2).slice (win0_3.rect t)).set ↔ _
  rw [View.set_slice_whole, Rect.mem_set_unit]
  exact Iff.rfl

/-- The 28 tiles cover the result array. -/
theorem tiles_cover (i : S4x50176x128.Idx) :
    ∃ t : Fin cfg0.N, (cfg0.win 3).flush t = true ∧ i ∈ ((cfg0.win 3).blk t).view.set := by
  have hi0 : (i 0).val < 4 := (i 0).isLt
  have hi1 : (i 1).val < 50176 := (i 1).isLt
  have hi2 : (i 2).val < 128 := (i 2).isLt
  obtain ⟨t, ht⟩ := idx_onto ⟨(i 0).val, hi0⟩ ⟨(i 1).val / 7168, by omega⟩
  have q0 : win0_3.index t (0 : Fin 3) = (i 0).val := congrFun ht 0
  have q1 : win0_3.index t (1 : Fin 3) = (i 1).val / 7168 := congrFun ht 1
  have q2 : win0_3.index t (2 : Fin 3) = 0 := congrFun ht 2
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 7168 ≤ (i 1).val ∧ (i 1).val < win0_3.index t (1 : Fin 3) * 7168 + 7168; omega
  | ⟨2, _⟩ => show win0_3.index t (2 : Fin 3) * 128 ≤ (i 2).val ∧ (i 2).val < win0_3.index t (2 : Fin 3) * 128 + 128; omega

/-- The result array after the run. -/
theorem final (c : Dev nD) : (dats m 0 c).arrAt 3 cfg0.N = proj (V m c main_v1) (V m c main_arg1) :=
  (dats m 0 c).arrAt_eq_of_cover 3 (proj (V m c main_v1) (V m c main_arg1)) (fun t _ => flushed_eq m c t) tiles_cover

/-- The token array the call finds: the first argument's pixels flattened, then pixel and channel axes exchanged. -/
theorem tokens_eq (c : Dev nD) :
    (V m c main_v1 : S4x50176x384.Idx → EReal)
      = transpose S4x50176x384 [0, 2, 1] (shapeCast S4x384x50176 (m ((c : Thread nD τ).loc main_arg0)) shapeCasts_S4x384x224x224_S4x384x50176) transposes_S4x384x50176_S4x50176x384_0_2_1 := by
  dsimp only [V, hostOps0]; after_results; rfl

/-- The run, read: the result at the projection of the arguments, the arguments unchanged. -/
theorem run : θ_run defs (onTc (τ := τ) (main (F := Ideal))) ⟨m, fun _ => 0, ρ⟩ fun r => ∀ c : Dev nD,
      r.2.mem ((c.tc : Thread nD τ).loc main_v2)
        = proj (transpose S4x50176x384 [0, 2, 1] (shapeCast S4x384x50176 (m ((c : Thread nD τ).loc main_arg0)) shapeCasts_S4x384x224x224_S4x384x50176) transposes_S4x384x50176_S4x50176x384_0_2_1)
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 3).trans ((final m c).trans (by rw [tokens_eq, V_main_arg1])),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c)))⟩) (run_main m ρ)

end Cert.KernelIdeal.Result

end
-- ==== Proof.RefValue.lean ====
/-
  The reference's result is the projection: its batched `dot_general` contracts the channel axis of the token array
  against the channel axis of the matrices, batch by batch — at the extended reals the sum `proj` names.
-/
import proofs.«171455_g6262062317891_cont_9to1_m_719_16_alg».proof.Proof.Gen.ReferenceIdeal.Read
import proofs.«171455_g6262062317891_cont_9to1_m_719_16_alg».proof.Proof.Projection

noncomputable section

namespace Cert.ReferenceIdeal.RefValue

open Idealize.ShloMosaic Idealize.ShloMosaic.TcCoe Idealize.SL.Sem
open Cert.ReferenceIdeal Cert.ReferenceIdeal.Gen Cert.Projection

/-- The reference's last stage, entry by entry, is `proj` of its token array and the matrices. -/
theorem result_eq (x0 : (⟨S4x384x224x224, .f32⟩ : BufTy).Contents (Elt Ideal)) (x1 : (⟨S4x384x128, .f32⟩ : BufTy).Contents (Elt Ideal)) :
    Read.val_main_v2 (F := Ideal) x0 x1 = proj (Read.val_main_v1 (F := Ideal) x0) x1 := by
  funext i
  rw [Read.val_main_v2_apply, proj_apply]
  refine Finset.sum_congr rfl fun k _ => ?_
  have el : Read.lidx_main_v2 i k = tokAt i k := funext fun a => by
    match a with
    | ⟨0, _⟩ => rfl
    | ⟨1, _⟩ => rfl
    | ⟨2, _⟩ => rfl
  have er : Read.ridx_main_v2 i k = matAt i k := funext fun a => by
    match a with
    | ⟨0, _⟩ => rfl
    | ⟨1, _⟩ => rfl
    | ⟨2, _⟩ => rfl
  rw [el, er]

/-- The reference's run, read: the result at the projection of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = proj (Read.val_main_v1 (F := Ideal) (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v2_eq _ _).trans (result_eq _ _)), (h c).2⟩)
    (Cert.ReferenceIdeal.Value.run (F := Ideal) m ρ)

end Cert.ReferenceIdeal.RefValue

end
-- ==== Proof.lean ====
/-
  The certificate of the hash-code projection kernel against its jnp reference.

  Both programs flatten the input's pixels and exchange the pixel and channel axes (the same two host operations),
  then contract the 384 channels of every token against the batch's 384 × 128 matrix.  The kernel does it tile by
  tile — 28 grid points, each multiplying two half-tiles of 3584 tokens, read through two windows on the one token
  array, into the two halves of a 7168-row output tile —, the reference by one batched `dot_general`.  Over the
  extended reals both results are, entry by entry, the same sum of the same products (`Cert.Projection.proj`).

  The frames: the kernel's run at either instance (`Run.frame`: the token array's ownership dealt in halves to the
  two windows that read it), the reference's its generated run.  The ideal pass rewrote nothing, so `preserves` is
  trivial.
-/
import proofs.«171455_g6262062317891_cont_9to1_m_719_16_alg».proof.Defs
import proofs.«171455_g6262062317891_cont_9to1_m_719_16_alg».proof.Proof.Gen.Pre_finite_inputs
import proofs.«171455_g6262062317891_cont_9to1_m_719_16_alg».proof.Proof.FrameBits
import proofs.«171455_g6262062317891_cont_9to1_m_719_16_alg».proof.Proof.FrameIdeal
import proofs.«171455_g6262062317891_cont_9to1_m_719_16_alg».proof.Proof.ValueIdeal
import proofs.«171455_g6262062317891_cont_9to1_m_719_16_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `proj` of arguments that agree; the two token arrays are the same two host
    operations of the same first argument. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
